-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S524288x128 .f32) (main_arg1 : FVec F S128x128 .f32) (main_arg2 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S16384x128 : Shape := ⟨2, ![16384, 128]⟩
abbrev S4096x128 : Shape := ⟨2, ![4096, 128]⟩

abbrev nBuf : Space → Nat
  | .hbm => 6
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128x128, .bf16⟩
  | .hbm, ⟨4, _⟩ => ⟨S1x128, .f32⟩
  | .hbm, ⟨5, _⟩ => ⟨S524288x128, .f32⟩
  | .local _ .vmem, ⟨0, _⟩ => ⟨S16384x128, .f32⟩
  | .local _ .vmem, ⟨1, _⟩ => ⟨S16384x128, .f32⟩
  | .local _ .vmem, ⟨2, _⟩ => ⟨S128x128, .bf16⟩
  | .local _ .vmem, ⟨3, _⟩ => ⟨S1x128, .f32⟩
  | .local _ .vmem, ⟨4, _⟩ => ⟨S16384x128, .f32⟩
  | .local _ .vmem, ⟨5, _⟩ => ⟨S16384x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c4096_i32 : BitVec 32 := 4096#32
  let v4 : BitVec 32 := Scalar.muli c0_i32 c4096_i32
  v4
def k0_off1 (c0_i32 : BitVec 32) : Fin 2 → Nat :=
  let c4096_i32 : BitVec 32 := 4096#32
  let v4 : BitVec 32 := Scalar.muli c0_i32 c4096_i32
  let v5 : BitVec 32 := v4
  let v6 : Index := Scalar.indexCast v5
  let c0_3 : Index := 0#32
  ![v6.toNat, 0]
def k0_mult2 : BitVec 32 :=
  let c1_i32 : BitVec 32 := 1#32
  let c4096_i32_5 : BitVec 32 := 4096#32
  let v14 : BitVec 32 := Scalar.muli c1_i32 c4096_i32_5
  v14
def k0_mult3 : BitVec 32 :=
  let c2_i32 : BitVec 32 := 2#32
  let c4096_i32_9 : BitVec 32 := 4096#32
  let v24 : BitVec 32 := Scalar.muli c2_i32 c4096_i32_9
  v24
def k0_mult4 : BitVec 32 :=
  let c3_i32 : BitVec 32 := 3#32
  let c4096_i32_13 : BitVec 32 := 4096#32
  let v34 : BitVec 32 := Scalar.muli c3_i32 c4096_i32_13
  v34
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S4096x128 : 0 < S4096x128.numel
  broadcasts_S1x128_S4096x128 : S1x128.Broadcasts S4096x128
  dot_S4096x128_S128x128_S4096x128_1_1_0_0_n_n_wf : DotDims.WF S4096x128 S128x128 S4096x128 [1] [1] [0] [0] [] []
  hrank0 : 0 < grid0.rank
  k0_mult1_dvd : 4096 ∣ k0_mult1.toNat
  k0_off1_inb : ∀ (r : Fin 4), ∀ a, (k0_off1 (BitVec.ofNat 32 r.val)) a + S4096x128.size a ≤ S16384x128.size a
  k0_mult2_dvd : 4096 ∣ k0_mult2.toNat
  k0_mult3_dvd : 4096 ∣ k0_mult3.toNat
  k0_mult4_dvd : 4096 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S524288x128.size a
  hwx0_3 : ∀ i : grid0.Coords, EltTy.bits .f32 = 32 ∨ (Rect.block (s := S524288x128) S16384x128.size (cc0_transform_3 i) (hinb0_3 i)).WholeWords (EltTy.packing .f32)

variable [Facts₀]

def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S524288x128, .f32⟩
  | .hbm, ⟨4, _⟩ => ⟨S1x128, .f32⟩
  | .hbm, ⟨5, _⟩ => ⟨S524288x128, .f32⟩
  | .hbm, ⟨6, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  dot_S524288x128_S128x128_S524288x128_1_1_0_0_n_n_wf : DotDims.WF S524288x128 S128x128 S524288x128 [1] [1] [0] [0] [] []

variable [Facts₀]

def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf

class Facts : Prop extends Facts₀ where

variable [Facts]
-- ==== Proof.Affine.lean ====
/-
  The affine map both programs compute, stated once over the extended reals and with no program in sight:
  for a matrix `x` of `R` rows and 128 columns, a 128-by-128 weight matrix `w` and a bias row `b`,

      affine x w b (r, o) = (Σ_k x (r, k) · w (o, k)) + b o,

  every row of `x` contracted with every row of `w` (the product with the transposed weights), the bias added
  to each row. The sum is the extended reals' own, so nothing here needs the entries to be finite: addition on
  the extended reals is commutative and associative, and both programs add the same 128 products and then
  the same bias.
  Below it, the one fact that carries a row block of the result to the whole result: rows `o .. o + n` of the
  affine map of `x` are the affine map of rows `o .. o + n` of `x`.
-/
import Idealize.ShloMosaic.PureOps.Ideal
import Idealize.ShloMosaic.Lib.ValueIdx

noncomputable section

open scoped BigOperators

namespace Cert.Affine

open Idealize.ShloMosaic Idealize.ShloMosaic.ValueIdx

/-- `affine x w b (r, o) = (Σ_k x (r, k) · w (o, k)) + b o` over the extended reals. -/
def affine (R : Nat) (x : (⟨2, ![R, 128]⟩ : Shape).Idx → EReal) (w : (⟨2, ![128, 128]⟩ : Shape).Idx → EReal)
    (b : Fin 128 → EReal) : (⟨2, ![R, 128]⟩ : Shape).Idx → EReal :=
  fun i => (∑ k : Fin 128, x (ix2 (i 0) k) * w (ix2 (i 1) k)) + b (i 1)

/-- At a pair of coordinates. -/
theorem affine_ix2 (R : Nat) (x : (⟨2, ![R, 128]⟩ : Shape).Idx → EReal) (w : (⟨2, ![128, 128]⟩ : Shape).Idx → EReal)
    (b : Fin 128 → EReal) (r : Fin R) (o : Fin 128) :
    affine R x w b (ix2 r o) = (∑ k : Fin 128, x (ix2 r k) * w (ix2 o k)) + b o := rfl

/-- A row of the result depends on that row of `x` alone: if `x'` at row `r'` is `x` at row `r`, the two
    results agree on those rows. -/
theorem affine_row_congr (R R' : Nat) (x : (⟨2, ![R, 128]⟩ : Shape).Idx → EReal) (x' : (⟨2, ![R', 128]⟩ : Shape).Idx → EReal)
    (w : (⟨2, ![128, 128]⟩ : Shape).Idx → EReal) (b : Fin 128 → EReal) (r : Fin R) (r' : Fin R') (o : Fin 128)
    (h : ∀ k : Fin 128, x' (ix2 r' k) = x (ix2 r k)) :
    affine R' x' w b (ix2 r' o) = affine R x w b (ix2 r o) := by
  rw [affine_ix2, affine_ix2]
  congr 1
  exact Finset.sum_congr rfl fun k _ => by rw [h k]

end Cert.Affine

end
-- ==== Proof.SliceProduct.lean ====
/-
  One sub-slice of the kernel body, read at an index, over the extended reals.
  The body cuts its 16384-row block into four slices of 4096 rows. For each slice `xs` it stores
  `xs · wᵀ + bias`: the slice narrowed to bf16 (the identity on the extended reals), multiplied on the matrix
  unit into a zero accumulator with the weights `v1`, contracting the second axis of both (so entry `(p, q)` is
  `Σ_k xs (p, k) · v1 (q, k)`, the zero accumulator adding nothing), and the bias row `v3`, broadcast down the
  4096 rows, added. So the stored slice is the affine map of `xs`.
  The matrix product is read exactly as the host's `dot_general` is read on the reference's side: the
  contraction's one-axis index set is re-indexed by its coordinate, and the operand indices the
  dimension numbers build are `(p, k)` on the left and `(q, k)` on the right.
-/
import proofs.«403402_j73967926771855_3_alg».proof.Proof.Gen.KernelIdeal.Skeleton
import proofs.«403402_j73967926771855_3_alg».proof.Proof.Affine
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Slice

open Cert.KernelIdeal Cert.KernelIdeal.Gen Idealize.ShloMosaic Idealize.ShloMosaic.TcCoe Idealize.ShloMosaic.ValueIdx
open Cert.Affine

/-! ## The operand indices of the body's matrix product -/

theorem lhs_axis0 (i : S4096x128.Idx) (q : dot_S4096x128_S128x128_S4096x128_1_1_0_0_n_n.contr.Idx) :
    (dot_S4096x128_S128x128_S4096x128_1_1_0_0_n_n.lhsIdx i q 0).val = (i 0).val := by
  unfold DotDims.lhsIdx
  rw [dif_neg (show ¬(0 : Fin S4096x128.rank) ∈ dot_S4096x128_S128x128_S4096x128_1_1_0_0_n_n.lhsBatch by decide), dif_pos (show (0 : Fin S4096x128.rank) ∈ dot_S4096x128_S128x128_S4096x128_1_1_0_0_n_n.lhsNonContracting by decide)]
  rfl
theorem lhs_axis1 (i : S4096x128.Idx) (q : dot_S4096x128_S128x128_S4096x128_1_1_0_0_n_n.contr.Idx) :
    (dot_S4096x128_S128x128_S4096x128_1_1_0_0_n_n.lhsIdx i q 1).val = (q ⟨0, by decide⟩).val :=
  dot_S4096x128_S128x128_S4096x128_1_1_0_0_n_n.lhsIdx_val_of_single rfl i q
theorem rhs_axis0 (i : S4096x128.Idx) (q : dot_S4096x128_S128x128_S4096x128_1_1_0_0_n_n.contr.Idx) :
    (dot_S4096x128_S128x128_S4096x128_1_1_0_0_n_n.rhsIdx i q 0).val = (i 1).val := by
  unfold DotDims.rhsIdx
  rw [dif_neg (show ¬(0 : Fin S128x128.rank) ∈ dot_S4096x128_S128x128_S4096x128_1_1_0_0_n_n.rhsBatch by decide), dif_pos (show (0 : Fin S128x128.rank) ∈ dot_S4096x128_S128x128_S4096x128_1_1_0_0_n_n.rhsNonContracting by decide)]
  rfl
theorem rhs_axis1 (i : S4096x128.Idx) (q : dot_S4096x128_S128x128_S4096x128_1_1_0_0_n_n.contr.Idx) :
    (dot_S4096x128_S128x128_S4096x128_1_1_0_0_n_n.rhsIdx i q 1).val = (q ⟨0, by decide⟩).val :=
  dot_S4096x128_S128x128_S4096x128_1_1_0_0_n_n.rhsIdx_val_of_single rfl i q

/-- The product into a zero accumulator, at `(p, q)`: row `p` of the left operand against row `q` of the right. -/
theorem product_apply (l : FVec Ideal S4096x128 .bf16) (r : FVec Ideal S128x128 .bf16) (p : Fin 4096) (q : Fin 128) :
    matmul dot_S4096x128_S128x128_S4096x128_1_1_0_0_n_n none l r (constant (F := Ideal) S4096x128 .f32 0x00000000#32) (ix2 p q)
      = ∑ k : Fin 128, l (ix2 p k) * r (ix2 q k) := by
  show FloatOps.matmul dot_S4096x128_S128x128_S4096x128_1_1_0_0_n_n none l r (constant (F := Ideal) S4096x128 .f32 0x00000000#32) (ix2 p q) = _
  rw [Ideal.matmul_constant_zero_apply, ← Equiv.sum_comp (ValueIdx.contrEquiv1 dot_S4096x128_S128x128_S4096x128_1_1_0_0_n_n 128 rfl rfl).symm]
  refine Finset.sum_congr rfl fun k _ => ?_
  have hk := ValueIdx.contrEquiv1_symm_val dot_S4096x128_S128x128_S4096x128_1_1_0_0_n_n 128 rfl rfl k
  have el : dot_S4096x128_S128x128_S4096x128_1_1_0_0_n_n.lhsIdx (ix2 p q) ((ValueIdx.contrEquiv1 dot_S4096x128_S128x128_S4096x128_1_1_0_0_n_n 128 rfl rfl).symm k) = ix2 p k := funext fun a => Fin.ext (by
    match a with
    | ⟨0, _⟩ => exact lhs_axis0 _ _
    | ⟨1, _⟩ => exact (lhs_axis1 _ _).trans hk)
  have er : dot_S4096x128_S128x128_S4096x128_1_1_0_0_n_n.rhsIdx (ix2 p q) ((ValueIdx.contrEquiv1 dot_S4096x128_S128x128_S4096x128_1_1_0_0_n_n 128 rfl rfl).symm k) = ix2 q k := funext fun a => Fin.ext (by
    match a with
    | ⟨0, _⟩ => exact rhs_axis0 _ _
    | ⟨1, _⟩ => exact (rhs_axis1 _ _).trans hk)
  rw [el, er]

/-! ## A stored slice is the affine map of the loaded slice -/

/-- The last slice's payload at `(p, q)`. -/
theorem stored_apply (v1 : FVec Ideal S128x128 .bf16) (v3 : FVec Ideal S1x128 .f32) (xs : FVec Ideal S4096x128 .f32)
    (p : Fin 4096) (q : Fin 128) :
    k0_pay1 (F := Ideal) v1 v3 xs (ix2 p q) = affine 4096 xs v1 (fun o => v3 (ix2 (0 : Fin 1) o)) (ix2 p q) := by
  unfold k0_pay1
  rw [affine_ix2]
  show matmul dot_S4096x128_S128x128_S4096x128_1_1_0_0_n_n none (truncf .bf16 xs bitsLt_bf16_f32) v1 (constant (F := Ideal) S4096x128 .f32 0x00000000#32) (ix2 p q)
      + broadcastTo S4096x128 v3 broadcasts_S1x128_S4096x128 (ix2 p q) = _
  rw [product_apply, broadcastTo_1b_ab_apply]
  rfl

/-- The weights and the bias row pass through a cast to their own shape unchanged. -/
theorem weights_cast (v0 : FVec Ideal S128x128 .bf16) : k0_pay2 (F := Ideal) v0 = v0 := shapeCast_self _ _
theorem bias_cast (v2 : FVec Ideal S1x128 .f32) : k0_pay3 (F := Ideal) v2 = v2 := shapeCast_self _ _

/-- The three earlier slices' payloads are the same term of their own loaded slice. -/
theorem stored0_eq (v0 : FVec Ideal S128x128 .bf16) (v2 : FVec Ideal S1x128 .f32) (xs : FVec Ideal S4096x128 .f32) :
    k0_pay4 (F := Ideal) v0 v2 xs = k0_pay1 (F := Ideal) (k0_pay2 v0) (k0_pay3 v2) xs := rfl
theorem stored1_eq (v0 : FVec Ideal S128x128 .bf16) (v2 : FVec Ideal S1x128 .f32) (xs : FVec Ideal S4096x128 .f32) :
    k0_pay5 (F := Ideal) v0 v2 xs = k0_pay1 (F := Ideal) (k0_pay2 v0) (k0_pay3 v2) xs := rfl
theorem stored2_eq (v0 : FVec Ideal S128x128 .bf16) (v2 : FVec Ideal S1x128 .f32) (xs : FVec Ideal S4096x128 .f32) :
    k0_pay6 (F := Ideal) v0 v2 xs = k0_pay1 (F := Ideal) (k0_pay2 v0) (k0_pay3 v2) xs := rfl

end Cert.KernelIdeal.Slice

end
-- ==== Proof.BlockValue.lean ====
/-
  What one grid point leaves in its output block, over the extended reals.
  The body stores four slices of 4096 rows, at row offsets 0, 4096, 8192 and 12288 of the 16384-row block;
  together they tile the block. The slice at offset `o` is the affine map of rows `o .. o + 4096` of the input
  block, and a row of the affine map depends on that row of its argument alone, so each stored slice is the
  restriction to its rows of ONE function of the block index: the affine map of the whole input block with the
  weights and the bias row. Pieces that all agree with one function leave that function wherever they cover.
-/
import proofs.«403402_j73967926771855_3_alg».proof.Proof.Gen.KernelIdeal.Frame
import proofs.«403402_j73967926771855_3_alg».proof.Proof.SliceProduct
import Idealize.ShloMosaic.Lib.Pipeline.Value
import Idealize.ShloMosaic.Lib.Tactic

set_option maxRecDepth 16384

noncomputable section

open scoped BigOperators

namespace Cert.KernelIdeal.Block

open Cert.KernelIdeal Cert.KernelIdeal.Gen Idealize.ShloMosaic Idealize.ShloMosaic.TcCoe Idealize.ShloMosaic.ValueIdx
open Idealize.SL.Sem
open Cert.Affine Cert.KernelIdeal.Slice

theorem zero_offsets : (![0, 0] : Fin 2 → Nat) = fun _ => 0 := funext fun a => by fin_cases a <;> rfl

/-- The slice stored at row offset `o`, at its local index `x`, is the block's affine map at the block index
    `(o + x 0, x 1)` the slice's rectangle gives `x`. -/
theorem stored_slice (x0 : FVec Ideal S16384x128 .f32) (v1 : FVec Ideal S128x128 .bf16) (v3 : FVec Ideal S1x128 .f32) (o : Nat)
    (inb : ∀ a, (![o, 0] : Fin 2 → Nat) a + (![4096, 128] : Fin 2 → Nat) a ≤ S16384x128.size a) (x : S4096x128.Idx) :
    k0_pay1 (F := Ideal) v1 v3 (View.ld x0 (Rect.unit (s := S16384x128) ![o, 0] ![4096, 128] inb)) x
      = affine 16384 x0 v1 (fun q => v3 (ix2 (0 : Fin 1) q)) ((Rect.unit (s := S16384x128) ![o, 0] ![4096, 128] inb).emb x) := by
  obtain ⟨p, q, rfl⟩ : ∃ (p : Fin 4096) (q : Fin 128), x = ix2 p q := ⟨x 0, x 1, eq_ix2 x⟩
  rw [stored_apply, eq_ix2 ((Rect.unit (s := S16384x128) ![o, 0] ![4096, 128] inb).emb (ix2 p q))]
  have hq : ((Rect.unit (s := S16384x128) ![o, 0] ![4096, 128] inb).emb (ix2 p q)) 1 = q :=
    Fin.ext (show 0 + 1 * q.val = q.val by omega)
  rw [hq]
  refine affine_row_congr 16384 4096 x0 _ v1 _ _ p q fun k => ?_
  show x0 ((Rect.unit (s := S16384x128) ![o, 0] ![4096, 128] inb).emb (ix2 p k)) = x0 (ix2 _ k)
  refine congrArg x0 (funext fun a => Fin.ext ?_)
  match a with
  | ⟨0, _⟩ => rfl
  | ⟨1, _⟩ => show 0 + 1 * k.val = k.val; omega

/-- THE BLOCK a point leaves: the affine map of its input block, whatever the staging memrefs. -/
theorem block_eq (c : Dev nD) (i : grid0.Coords) (arg1 : Memref sig .tc .vmem S16384x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S16384x128 .f32) (harg4 : arg4.IsWhole)
    (x0 : Vec Ideal S16384x128 .f32) (x1 : Vec Ideal S128x128 .bf16) (x2 : Vec Ideal S1x128 .f32) :
    out0_A_3 (F := Ideal) c i arg1 harg1 arg2 harg2 arg3 harg3 arg4 harg4 x0 x1 x2
      = affine 16384 x0 x1 (fun q => x2 (ix2 (0 : Fin 1) q)) := by
  unfold out0_A_3
  rw [View.read_writes_eq_canon _ _ _ (cover0_A_3 c i arg1 harg1 arg2 harg2 arg3 harg3 arg4 harg4 x0 x1 x2)]
  funext y
  refine View.canon_apply_of_pieces (affine 16384 x0 x1 (fun q => x2 (ix2 (0 : Fin 1) q))) _ ?_ y
    (cover0_A_3 c i arg1 harg1 arg2 harg2 arg3 harg3 arg4 harg4 x0 x1 x2 y)
  unfold kernelRun0_A
  dsimp only
  try sl_unfold_words
  simp only [View.readAt_eq_ld, harg1.read_unread, harg2.read_unread, harg3.read_unread,
    View.ld_unit_zero (S := S128x128) zero_offsets, View.ld_unit_zero (S := S1x128) zero_offsets]
  intro p hp x
  simp only [List.mem_cons, List.not_mem_nil, or_false] at hp
  rcases hp with rfl | rfl | rfl | rfl
  · dsimp only
    rw [weights_cast, bias_cast]
    exact stored_slice x0 x1 x2 12288 _ x
  · dsimp only
    rw [stored2_eq, weights_cast, bias_cast]
    exact stored_slice x0 x1 x2 8192 _ x
  · dsimp only
    rw [stored1_eq, weights_cast, bias_cast]
    exact stored_slice x0 x1 x2 4096 _ x
  · dsimp only
    rw [stored0_eq, weights_cast, bias_cast]
    exact stored_slice x0 x1 x2 0 _ x

end Cert.KernelIdeal.Block

end
-- ==== Proof.ArrayValue.lean ====
/-
  From blocks to the whole result, over the extended reals.
  The grid has 32 points. Point `t` is handed rows `16384 t .. 16384 (t + 1)` of the input, the whole weight
  matrix and the whole bias row, and writes rows `16384 t .. 16384 (t + 1)` of the result. Before the grid runs
  the host narrows the weights to bf16 (the identity on the extended reals) and lifts the bias vector to one
  row, so the weights every point sees are the launch weights and its bias row at column `o` is the bias at `o`.
  What a point writes is the affine map of its input block; a row of the affine map depends on that row of the
  input alone; so what point `t` writes is rows `16384 t ..` of the affine map of the whole input. The 32 row
  blocks tile the 524288 rows (row `r` is in the block of point `r / 16384`), so the result array ends holding
  the affine map of the three arguments.
-/
import proofs.«403402_j73967926771855_3_alg».proof.Proof.Gen.KernelIdeal.Value
import proofs.«403402_j73967926771855_3_alg».proof.Proof.BlockValue
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open scoped BigOperators

namespace Cert.KernelIdeal.Arr

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Affine Cert.KernelIdeal.Block

variable (m : (ℓ : Loc nD τ sig) → Buf (Elt Ideal) ℓ) (ρ : Dev nD → PrngReg)

/-- THE RESULT: the affine map of the three arguments as launched. -/
abbrev result (c : Dev nD) : Buf (Elt Ideal) ((c : Thread nD τ).loc main_v2) :=
  affine 524288 (m ((c : Thread nD τ).loc main_arg0)) (m ((c : Thread nD τ).loc main_arg1))
    (fun o => m ((c : Thread nD τ).loc main_arg2) (ix1 o))

/-! ## What the host leaves for the grid -/

/-- The weights the grid finds are the launch weights: narrowing to bf16 changes no extended real. -/
theorem weights_entry (c : Dev nD) (j : S128x128.Idx) :
    (V m c main_v0 : S128x128.Idx → EReal) j = (m ((c : Thread nD τ).loc main_arg1) : S128x128.Idx → EReal) j := by
  have e : (V m c main_v0 : S128x128.Idx → EReal)
      = truncf (F := Ideal) .bf16 (m ((c : Thread nD τ).loc main_arg1)) bitsLt_bf16_f32 := by
    dsimp only [Gen.V, Gen.hostOps0]; after_results
  rw [e]; rfl

/-- The bias row the grid finds, at column `o`, is the launch bias at `o`. -/
theorem bias_entry (c : Dev nD) (o : Fin 128) :
    (V m c main_v1 : S1x128.Idx → EReal) (ix2 (0 : Fin 1) o) = (m ((c : Thread nD τ).loc main_arg2) : S128.Idx → EReal) (ix1 o) := by
  have e : (V m c main_v1 : S1x128.Idx → EReal)
      = shapeCast S1x128 (m ((c : Thread nD τ).loc main_arg2) : S128.Idx → EReal) shapeCasts_S128_S1x128 := by
    dsimp only [Gen.V, Gen.hostOps0]; after_results; rfl
  rw [e]; exact shapeCast_a_1a_apply _ _ 0 o

/-! ## The blocks -/

/-- The printed index maps over the 32 points: the input's and the result's row block is the point's number,
    the weights' and the bias row's block is the one they have. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt N_0

/-- The input block of point `t`, at `(p, k)`, is the input at row `16384 t + p`. -/
theorem input_block (c : Dev nD) (t : Fin cfg0.N) (p : Fin 16384) (k : Fin 128) (r : Fin 524288)
    (hr : r.val = 16384 * t.val + p.val) :
    (iblk m c 0 t : S16384x128.Idx → EReal) (ix2 p k)
      = (m ((c : Thread nD τ).loc main_arg0) : S524288x128.Idx → EReal) (ix2 r k) := by
  obtain ⟨e00, e01, -⟩ := index_facts t
  show V m c main_arg0 (((cfg0.win 0).blk t).view.emb (ix2 p k)) = _
  rw [V_main_arg0 m c]
  refine congrArg _ (funext fun a => Fin.ext ?_)
  match a with
  | ⟨0, _⟩ => show win0_0.index t (0 : Fin 2) * 16384 + 1 * p.val = r.val; rw [e00, hr]; omega
  | ⟨1, _⟩ => show win0_0.index t (1 : Fin 2) * 128 + 1 * k.val = k.val; rw [e01]; omega

/-- Every point's weight block is the whole launch weight matrix. -/
theorem weights_block (c : Dev nD) (t : Fin cfg0.N) (o k : Fin 128) :
    (iblk m c 1 t : S128x128.Idx → EReal) (ix2 o k)
      = (m ((c : Thread nD τ).loc main_arg1) : S128x128.Idx → EReal) (ix2 o k) := by
  obtain ⟨-, -, e10, e11, -⟩ := index_facts t
  show V m c main_v0 (((cfg0.win 1).blk t).view.emb (ix2 o k)) = _
  rw [weights_entry]
  refine congrArg _ (funext fun a => Fin.ext ?_)
  match a with
  | ⟨0, _⟩ => show win0_1.index t (0 : Fin 2) * 128 + 1 * o.val = o.val; rw [e10]; omega
  | ⟨1, _⟩ => show win0_1.index t (1 : Fin 2) * 128 + 1 * k.val = k.val; rw [e11]; omega

/-- Every point's bias block, at column `o`, is the launch bias at `o`. -/
theorem bias_block (c : Dev nD) (t : Fin cfg0.N) (o : Fin 128) :
    (iblk m c 2 t : S1x128.Idx → EReal) (ix2 (0 : Fin 1) o)
      = (m ((c : Thread nD τ).loc main_arg2) : S128.Idx → EReal) (ix1 o) := by
  obtain ⟨-, -, -, -, e20, e21, -⟩ := index_facts t
  show V m c main_v1 (((cfg0.win 2).blk t).view.emb (ix2 (0 : Fin 1) o)) = _
  have hi : ((cfg0.win 2).blk t).view.emb (ix2 (0 : Fin 1) o) = ix2 (0 : Fin 1) o := funext fun a => Fin.ext (by
    match a with
    | ⟨0, _⟩ => show win0_2.index t (0 : Fin 2) * 1 + 1 * 0 = 0; rw [e20]
    | ⟨1, _⟩ => show win0_2.index t (1 : Fin 2) * 128 + 1 * o.val = o.val; rw [e21]; omega)
  rw [hi]
  exact bias_entry m c o

/-- WHAT POINT `t` WRITES BACK is block `t` of the result. -/
theorem flushed_eq (c : Dev nD) (t : Fin cfg0.N) :
    (dats m 0 c).flushed 3 t = ((cfg0.win 3).blk t).view.read (Elt Ideal) (result m c) := by
  rw [flushed3_A, block_eq]
  obtain ⟨-, -, -, -, -, -, e30, e31⟩ := index_facts t
  have ht := point_lt t
  funext j
  obtain ⟨p, q, rfl⟩ : ∃ (p : Fin 16384) (q : Fin 128), j = ix2 p q := ⟨j 0, j 1, eq_ix2 j⟩
  show affine 16384 (iblk m c 0 t) (iblk m c 1 t) (fun o => iblk m c 2 t (ix2 (0 : Fin 1) o)) (ix2 p q)
      = affine 524288 (m ((c : Thread nD τ).loc main_arg0)) (m ((c : Thread nD τ).loc main_arg1))
          (fun o => m ((c : Thread nD τ).loc main_arg2) (ix1 o)) (((cfg0.win 3).blk t).view.emb (ix2 p q))
  have hlt : 16384 * t.val + p.val < 524288 := by have := p.isLt; omega
  have hi : ((cfg0.win 3).blk t).view.emb (ix2 p q)
      = ix2 (⟨16384 * t.val + p.val, hlt⟩ : Fin 524288) q := funext fun a => Fin.ext (by
    match a with
    | ⟨0, _⟩ => show win0_3.index t (0 : Fin 2) * 16384 + 1 * p.val = 16384 * t.val + p.val; rw [e30]; omega
    | ⟨1, _⟩ => show win0_3.index t (1 : Fin 2) * 128 + 1 * q.val = q.val; rw [e31]; omega)
  rw [hi, affine_ix2, affine_ix2, bias_block]
  congr 1
  exact Finset.sum_congr rfl fun k _ => by rw [input_block m c t p k ⟨16384 * t.val + p.val, hlt⟩ rfl, weights_block]

/-! ## The array and the run -/

/-- An index of the result is in point `t`'s block iff each coordinate is in the block's range on its axis. -/
theorem mem_block (t : Fin cfg0.N) (i : S524288x128.Idx) :
    i ∈ ((cfg0.win 3).blk t).view.set ↔ ∀ a : Fin 2, win0_3.index t a * S16384x128.size a ≤ (i a).val ∧ (i a).val < win0_3.index t a * S16384x128.size a + S16384x128.size a := by
  show i ∈ ((View.whole main_v2).slice (win0_3.rect t)).set ↔ _
  rw [View.set_slice_whole, Rect.mem_set_unit]
  exact Iff.rfl

/-- Row `r` of the result is in the block of point `r / 16384`: the 32 blocks cover the array. -/
theorem covered (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  have hN : cfg0.N = 32 := N_0
  let t : Fin cfg0.N := ⟨(i 0).val / 16384, by rw [hN]; omega⟩
  obtain ⟨-, -, -, -, -, -, e30, e31⟩ := index_facts t
  have ht : t.val = (i 0).val / 16384 := rfl
  refine ⟨t, flush0_3 t, ?_⟩
  rw [mem_block]
  intro a
  match a with
  | ⟨0, _⟩ => show win0_3.index t (0 : Fin 2) * 16384 ≤ (i 0).val ∧ (i 0).val < win0_3.index t (0 : Fin 2) * 16384 + 16384; rw [e30, ht]; omega
  | ⟨1, _⟩ => show win0_3.index t (1 : Fin 2) * 128 ≤ (i 1).val ∧ (i 1).val < win0_3.index t (1 : Fin 2) * 128 + 128; rw [e31]; omega

/-- THE ARRAY after the run is the result. -/
theorem final (c : Dev nD) : (dats m 0 c).arrAt 3 cfg0.N = result m c :=
  (dats m 0 c).arrAt_eq_of_cover 3 (result m c) (fun t _ => flushed_eq m c t) covered

/-- THE RUN, read: every weakly fair execution ends with the result array at the affine map of the arguments,
    the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Arr

end
-- ==== Proof.ReferenceValue.lean ====
/-
  The reference, over the extended reals, is the affine map of its arguments.
  The reference contracts the second axis of the input with the second axis of the weights on the host
  (entry `(r, o)` is `Σ_k x (r, k) · w (o, k)`), lifts the bias vector to one row, copies that row down all
  524288 rows, and adds. Reading each operation at an index: the contraction's operand indices are `(r, k)`
  and `(o, k)`; the lifted and copied bias at `(r, o)` is the bias at `o`.
-/
import proofs.«403402_j73967926771855_3_alg».proof.Proof.Gen.ReferenceIdeal.Read
import proofs.«403402_j73967926771855_3_alg».proof.Proof.Affine

noncomputable section

open scoped BigOperators

namespace Cert.ReferenceIdeal.Hand

open Cert.ReferenceIdeal Cert.ReferenceIdeal.Read Idealize.ShloMosaic Idealize.ShloMosaic.TcCoe Idealize.ShloMosaic.ValueIdx
open Cert.Affine

/-- The contraction reads the input at `(r, k)` … -/
theorem left_index (r : Fin 524288) (o k : Fin 128) : lidx_main_v0 (ix2 r o) k = ix2 r k :=
  funext fun a => Fin.ext (by match a with | ⟨0, _⟩ => rfl | ⟨1, _⟩ => rfl)
/-- … and the weights at `(o, k)`. -/
theorem right_index (r : Fin 524288) (o k : Fin 128) : ridx_main_v0 (ix2 r o) k = ix2 o k :=
  funext fun a => Fin.ext (by match a with | ⟨0, _⟩ => rfl | ⟨1, _⟩ => rfl)
/-- The bias, lifted to a row and copied down the rows, is read at its column. -/
theorem bias_index (r : Fin 524288) (o : Fin 128) : idx_main_v1 (idx_main_v2 (ix2 r o)) = ix1 o :=
  funext fun a => Fin.ext (by match a with | ⟨0, _⟩ => rfl)

/-- THE REFERENCE'S RESULT is the affine map of the three arguments. -/
theorem reference_is_affine (x0 : FVec Ideal S524288x128 .f32) (x1 : FVec Ideal S128x128 .f32) (x2 : FVec Ideal S128 .f32) :
    val_main_v3 (F := Ideal) x0 x1 x2 = affine 524288 x0 x1 (fun o => x2 (ix1 o)) := by
  funext i
  obtain ⟨r, o, rfl⟩ : ∃ (r : Fin 524288) (o : Fin 128), i = ix2 r o := ⟨i 0, i 1, eq_ix2 i⟩
  rw [val_main_v3_apply, val_main_v0_apply, val_main_v2_apply, val_main_v1_apply, affine_ix2, bias_index]
  show (∑ k : Fin 128, x0 (lidx_main_v0 (ix2 r o) k) * x1 (ridx_main_v0 (ix2 r o) k)) + x2 (ix1 o) = _
  congr 1
  exact Finset.sum_congr rfl fun k _ => by rw [left_index, right_index]

end Cert.ReferenceIdeal.Hand

end
-- ==== Proof.lean ====
/-
  The kernel and its reference compute one affine map.
  Arguments: an input `x` of 524288 rows and 128 columns, a 128-by-128 weight matrix `w`, a bias vector `b` of
  length 128. The reference is `x · wᵀ + b` on the host: entry `(r, o)` is `Σ_k x (r, k) · w (o, k) + b o`.
  The kernel narrows the weights to bf16 and lifts the bias to a row on the host, then runs a grid of 32
  points; each point takes 16384 rows of `x`, cuts them into four slices of 4096 rows, narrows each slice to
  bf16, multiplies it with the weights on the matrix unit into a zero accumulator (contracting the second axis
  of both), adds the bias row, and stores the slice into its rows of the output block.
  Over the extended reals a change of float format is the identity and the zero accumulator adds nothing, so
  each stored slice, each block, and so the whole result array is that same affine map of the arguments
  (Proof/SliceProduct, Proof/BlockValue, Proof/ArrayValue); the reference's four host operations read at an
  index give it too (Proof/ReferenceValue). Both sides add the same 128 products and then the same bias, so
  the equality needs no finiteness of the inputs: the precondition is never opened.
  The three frames are the generated ones (the reference's is its run with the result dropped); the
  idealization rewrote nothing, so `preserves` is trivial.
-/
import proofs.«403402_j73967926771855_3_alg».proof.Defs
import proofs.«403402_j73967926771855_3_alg».proof.Proof.Gen.Kernel
import proofs.«403402_j73967926771855_3_alg».proof.Proof.Gen.Kernel.Skeleton
import proofs.«403402_j73967926771855_3_alg».proof.Proof.Gen.Kernel.Launch
import proofs.«403402_j73967926771855_3_alg».proof.Proof.Gen.Kernel.Points
import proofs.«403402_j73967926771855_3_alg».proof.Proof.Gen.Kernel.Frame
import proofs.«403402_j73967926771855_3_alg».proof.Proof.Gen.KernelIdeal
import proofs.«403402_j73967926771855_3_alg».proof.Proof.Gen.KernelIdeal.Skeleton
import proofs.«403402_j73967926771855_3_alg».proof.Proof.Gen.KernelIdeal.Launch
import proofs.«403402_j73967926771855_3_alg».proof.Proof.Gen.KernelIdeal.Points
import proofs.«403402_j73967926771855_3_alg».proof.Proof.Gen.KernelIdeal.Frame
import proofs.«403402_j73967926771855_3_alg».proof.Proof.Gen.ReferenceIdeal
import proofs.«403402_j73967926771855_3_alg».proof.Proof.Gen.Pre_finite_inputs
import proofs.«403402_j73967926771855_3_alg».proof.Proof.Gen.KernelIdeal.Value
import proofs.«403402_j73967926771855_3_alg».proof.Proof.Gen.ReferenceIdeal.Run
import proofs.«403402_j73967926771855_3_alg».proof.Proof.Gen.ReferenceIdeal.Read
import proofs.«403402_j73967926771855_3_alg».proof.Proof.ArrayValue
import proofs.«403402_j73967926771855_3_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array ends at the affine map of its
    arguments and the reference's at the affine map of its own: the same array. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Hand.reference_is_affine,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
